-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x56x56 : Shape := ⟨4, ![64, 128, 56, 56]⟩
abbrev S401408 : Shape := ⟨1, ![401408]⟩
abbrev S_ : Shape := ⟨0, ![]⟩

class Facts : Prop where
  bcast_S_S64x128x56x56 : S_.BroadcastsInDim S64x128x56x56 (![] : Fin 0 → Fin S64x128x56x56.rank)
  reducesTo_S64x128x56x56_S_d0_1_2_3 : S64x128x56x56.ReducesTo [0, 1, 2, 3] S_
  h_S_ : 0 < S_.numel
  bcast_S_S401408 : S_.BroadcastsInDim S401408 (![] : Fin 0 → Fin S401408.rank)
  reducesTo_S401408_S_d0 : S401408.ReducesTo [0] S_

variable [Facts]

def fn {F : FTy → Type} [FloatOps F] (main_arg0 : FVec F S64x128x56x56 .f32) (main_arg1 : IVec S401408 32) : IVec S_ 1 :=
  let main_v0 : FVec F S64x128x56x56 .f32 := Host.absf main_arg0
  let main_cst : FVec F S_ .f32 := constant S_ .f32 0x7F800000#32
  let main_v1 : FVec F S64x128x56x56 .f32 := broadcastInDim S64x128x56x56 ![] bcast_S_S64x128x56x56 main_cst
  let main_v2 : IVec S64x128x56x56 1 := cmpf .olt main_v0 main_v1
  let main_c : IVec S_ 1 := constantI S_ 1 1#1
  let main_v3 : IVec S_ 1 := (fun x v => Host.reduce IntOp.andi x v reducesTo_S64x128x56x56_S_d0_1_2_3 h_S_) main_v2 main_c
  let main_c_0 : IVec S_ 32 := constantI S_ 32 0#32
  let main_v4 : IVec S401408 32 := broadcastInDim S401408 ![] bcast_S_S401408 main_c_0
  let main_v5 : IVec S401408 1 := cmpi .sge main_arg1 main_v4
  let main_c_1 : IVec S_ 32 := constantI S_ 32 6#32
  let main_v6 : IVec S401408 32 := broadcastInDim S401408 ![] bcast_S_S401408 main_c_1
  let main_v7 : IVec S401408 1 := cmpi .slt main_arg1 main_v6
  let main_v8 : IVec S401408 1 := andi main_v5 main_v7
  let main_c_2 : IVec S_ 1 := constantI S_ 1 1#1
  let main_v9 : IVec S_ 1 := (fun x v => Host.reduce IntOp.andi x v reducesTo_S401408_S_d0 h_S_) main_v8 main_c_2
  let main_v10 : IVec S_ 1 := andi main_v3 main_v9
  main_v10
-- ==== Kernel.lean ====
abbrev S64x128x56x56 : Shape := ⟨4, ![64, 128, 56, 56]⟩
abbrev S401408 : Shape := ⟨1, ![401408]⟩
abbrev S64x401408 : Shape := ⟨2, ![64, 401408]⟩
abbrev S1x401408 : Shape := ⟨2, ![1, 401408]⟩
abbrev S64x6272 : Shape := ⟨2, ![64, 6272]⟩
abbrev S1x6272 : Shape := ⟨2, ![1, 6272]⟩

abbrev nBuf : Space → Nat
  | .hbm => 6
  | .vmem => 6
  | .smem => 0
  | _ => 0

abbrev bufTy : (tb : Table) → Fin (tcTables nBuf tb) → BufTy
  | .hbm, ⟨0, _⟩ => ⟨S64x128x56x56, .f32⟩
  | .hbm, ⟨1, _⟩ => ⟨S401408, .i32⟩
  | .hbm, ⟨2, _⟩ => ⟨S64x401408, .f32⟩
  | .hbm, ⟨3, _⟩ => ⟨S1x401408, .i32⟩
  | .hbm, ⟨4, _⟩ => ⟨S64x401408, .f32⟩
  | .hbm, ⟨5, _⟩ => ⟨S64x128x56x56, .f32⟩
  | .local _ .vmem, ⟨0, _⟩ => ⟨S64x6272, .f32⟩
  | .local _ .vmem, ⟨1, _⟩ => ⟨S64x6272, .f32⟩
  | .local _ .vmem, ⟨2, _⟩ => ⟨S1x6272, .i32⟩
  | .local _ .vmem, ⟨3, _⟩ => ⟨S1x6272, .i32⟩
  | .local _ .vmem, ⟨4, _⟩ => ⟨S64x6272, .f32⟩
  | .local _ .vmem, ⟨5, _⟩ => ⟨S64x6272, .f32⟩
  | _, _ => ⟨S64x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S64x6272 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6272 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x6272 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x128x56x56_S64x401408 : S64x128x56x56.ShapeCasts S64x401408
  shapeCasts_S401408_S1x401408 : S401408.ShapeCasts S1x401408
  inb_S64x6272_S64x6272_0_0 : ∀ a, (![0, 0] : Fin 2 → Nat) a + S64x6272.size a ≤ S64x6272.size a
  h_S64x6272 : 0 < S64x6272.numel
  shapeCasts_S64x6272_S64x6272 : S64x6272.ShapeCasts S64x6272
  inb_S1x6272_S1x6272_0_0 : ∀ a, (![0, 0] : Fin 2 → Nat) a + S1x6272.size a ≤ S1x6272.size a
  h_S1x6272 : 0 < S1x6272.numel
  shapeCasts_S1x6272_S1x6272 : S1x6272.ShapeCasts S1x6272
  broadcasts_S1x6272_S64x6272 : S1x6272.Broadcasts S64x6272
  shapeCasts_S64x401408_S64x128x56x56 : S64x401408.ShapeCasts S64x128x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x6272.size a ≤ S64x401408.size a
  hwx0_0 : ∀ i : grid0.Coords, EltTy.bits .f32 = 32 ∨ (Rect.block (s := S64x401408) S64x6272.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x6272.size a ≤ S1x401408.size a
  hwx0_1 : ∀ i : grid0.Coords, EltTy.bits .i32 = 32 ∨ (Rect.block (s := S1x401408) S1x6272.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x6272.size a ≤ S64x401408.size a
  hwx0_2 : ∀ i : grid0.Coords, EltTy.bits .f32 = 32 ∨ (Rect.block (s := S64x401408) S64x6272.size (cc0_transform_2 i) (hinb0_2 i)).WholeWords (EltTy.packing .f32)

variable [Facts₀]

abbrev win0_0 : Pipeline.Window sig grid0 :=
  Pipeline.Window.ofSpec (Memref.whole main_v0) S64x6272.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x6272.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x6272.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x128x56x56 : Shape := ⟨4, ![64, 128, 56, 56]⟩
abbrev S401408 : Shape := ⟨1, ![401408]⟩
abbrev S64x401408 : Shape := ⟨2, ![64, 401408]⟩
abbrev S_ : Shape := ⟨0, ![]⟩
abbrev S1x64x401408 : Shape := ⟨3, ![1, 64, 401408]⟩
abbrev S6x64x401408 : Shape := ⟨3, ![6, 64, 401408]⟩
abbrev S1x1x401408 : Shape := ⟨3, ![1, 1, 401408]⟩
abbrev S1x64x401408x1 : Shape := ⟨4, ![1, 64, 401408, 1]⟩
abbrev S1 : Shape := ⟨1, ![1]⟩
abbrev S1x1x1x1 : Shape := ⟨4, ![1, 1, 1, 1]⟩

abbrev nBuf : Space → Nat
  | .hbm => 88
  | .vmem => 0
  | .smem => 0
  | _ => 0

abbrev bufTy : (tb : Table) → Fin (tcTables nBuf tb) → BufTy
  | .hbm, ⟨0, _⟩ => ⟨S64x128x56x56, .f32⟩
  | .hbm, ⟨1, _⟩ => ⟨S401408, .i32⟩
  | .hbm, ⟨2, _⟩ => ⟨S64x401408, .f32⟩
  | .hbm, ⟨3, _⟩ => ⟨S_, .f32⟩
  | .hbm, ⟨4, _⟩ => ⟨S64x401408, .f32⟩
  | .hbm, ⟨5, _⟩ => ⟨S64x401408, .f32⟩
  | .hbm, ⟨6, _⟩ => ⟨S64x401408, .f32⟩
  | .hbm, ⟨7, _⟩ => ⟨S64x401408, .f32⟩
  | .hbm, ⟨8, _⟩ => ⟨S_, .f32⟩
  | .hbm, ⟨9, _⟩ => ⟨S64x401408, .f32⟩
  | .hbm, ⟨10, _⟩ => ⟨S64x401408, .f32⟩
  | .hbm, ⟨11, _⟩ => ⟨S_, .f32⟩
  | .hbm, ⟨12, _⟩ => ⟨S64x401408, .f32⟩
  | .hbm, ⟨13, _⟩ => ⟨S64x401408, .f32⟩
  | .hbm, ⟨14, _⟩ => ⟨S64x401408, .f32⟩
  | .hbm, ⟨15, _⟩ => ⟨S_, .f32⟩
  | .hbm, ⟨16, _⟩ => ⟨S64x401408, .f32⟩
  | .hbm, ⟨17, _⟩ => ⟨S64x401408, .i1⟩
  | .hbm, ⟨18, _⟩ => ⟨S_, .f32⟩
  | .hbm, ⟨19, _⟩ => ⟨S64x401408, .f32⟩
  | .hbm, ⟨20, _⟩ => ⟨S64x401408, .i1⟩
  | .hbm, ⟨21, _⟩ => ⟨S_, .f32⟩
  | .hbm, ⟨22, _⟩ => ⟨S_, .f32⟩
  | .hbm, ⟨23, _⟩ => ⟨S64x401408, .f32⟩
  | .hbm, ⟨24, _⟩ => ⟨S64x401408, .f32⟩
  | .hbm, ⟨25, _⟩ => ⟨S64x401408, .f32⟩
  | .hbm, ⟨26, _⟩ => ⟨S_, .f32⟩
  | .hbm, ⟨27, _⟩ => ⟨S64x401408, .f32⟩
  | .hbm, ⟨28, _⟩ => ⟨S64x401408, .f32⟩
  | .hbm, ⟨29, _⟩ => ⟨S64x401408, .f32⟩
  | .hbm, ⟨30, _⟩ => ⟨S_, .f32⟩
  | .hbm, ⟨31, _⟩ => ⟨S_, .f32⟩
  | .hbm, ⟨32, _⟩ => ⟨S64x401408, .f32⟩
  | .hbm, ⟨33, _⟩ => ⟨S64x401408, .i1⟩
  | .hbm, ⟨34, _⟩ => ⟨S_, .f32⟩
  | .hbm, ⟨35, _⟩ => ⟨S64x401408, .f32⟩
  | .hbm, ⟨36, _⟩ => ⟨S64x401408, .f32⟩
  | .hbm, ⟨37, _⟩ => ⟨S64x401408, .f32⟩
  | .hbm, ⟨38, _⟩ => ⟨S64x401408, .f32⟩
  | .hbm, ⟨39, _⟩ => ⟨S64x401408, .f32⟩
  | .hbm, ⟨40, _⟩ => ⟨S_, .f32⟩
  | .hbm, ⟨41, _⟩ => ⟨S64x401408, .f32⟩
  | .hbm, ⟨42, _⟩ => ⟨S64x401408, .f32⟩
  | .hbm, ⟨43, _⟩ => ⟨S64x401408, .f32⟩
  | .hbm, ⟨44, _⟩ => ⟨S_, .f32⟩
  | .hbm, ⟨45, _⟩ => ⟨S64x401408, .f32⟩
  | .hbm, ⟨46, _⟩ => ⟨S64x401408, .f32⟩
  | .hbm, ⟨47, _⟩ => ⟨S64x401408, .f32⟩
  | .hbm, ⟨48, _⟩ => ⟨S_, .f32⟩
  | .hbm, ⟨49, _⟩ => ⟨S64x401408, .f32⟩
  | .hbm, ⟨50, _⟩ => ⟨S64x401408, .f32⟩
  | .hbm, ⟨51, _⟩ => ⟨S_, .f32⟩
  | .hbm, ⟨52, _⟩ => ⟨S64x401408, .f32⟩
  | .hbm, ⟨53, _⟩ => ⟨S64x401408, .f32⟩
  | .hbm, ⟨54, _⟩ => ⟨S64x401408, .f32⟩
  | .hbm, ⟨55, _⟩ => ⟨S1x64x401408, .f32⟩
  | .hbm, ⟨56, _⟩ => ⟨S1x64x401408, .f32⟩
  | .hbm, ⟨57, _⟩ => ⟨S1x64x401408, .f32⟩
  | .hbm, ⟨58, _⟩ => ⟨S1x64x401408, .f32⟩
  | .hbm, ⟨59, _⟩ => ⟨S1x64x401408, .f32⟩
  | .hbm, ⟨60, _⟩ => ⟨S1x64x401408, .f32⟩
  | .hbm, ⟨61, _⟩ => ⟨S6x64x401408, .f32⟩
  | .hbm, ⟨62, _⟩ => ⟨S1x1x401408, .i32⟩
  | .hbm, ⟨63, _⟩ => ⟨S1x64x401408, .i32⟩
  | .hbm, ⟨64, _⟩ => ⟨S_, .i32⟩
  | .hbm, ⟨65, _⟩ => ⟨S1x64x401408, .i32⟩
  | .hbm, ⟨66, _⟩ => ⟨S1x64x401408, .i1⟩
  | .hbm, ⟨67, _⟩ => ⟨S_, .i32⟩
  | .hbm, ⟨68, _⟩ => ⟨S1x64x401408, .i32⟩
  | .hbm, ⟨69, _⟩ => ⟨S1x64x401408, .i32⟩
  | .hbm, ⟨70, _⟩ => ⟨S1x64x401408, .i32⟩
  | .hbm, ⟨71, _⟩ => ⟨S1x64x401408x1, .i32⟩
  | .hbm, ⟨72, _⟩ => ⟨S1, .i32⟩
  | .hbm, ⟨73, _⟩ => ⟨S_, .i32⟩
  | .hbm, ⟨74, _⟩ => ⟨S1x64x401408x1, .i32⟩
  | .hbm, ⟨75, _⟩ => ⟨S1x64x401408x1, .i1⟩
  | .hbm, ⟨76, _⟩ => ⟨S1x1x1x1, .i32⟩
  | .hbm, ⟨77, _⟩ => ⟨S1x64x401408x1, .i32⟩
  | .hbm, ⟨78, _⟩ => ⟨S1x64x401408x1, .i1⟩
  | .hbm, ⟨79, _⟩ => ⟨S1x64x401408x1, .i1⟩
  | .hbm, ⟨80, _⟩ => ⟨S_, .i1⟩
  | .hbm, ⟨81, _⟩ => ⟨S1x64x401408, .i1⟩
  | .hbm, ⟨82, _⟩ => ⟨S1x64x401408, .f32⟩
  | .hbm, ⟨83, _⟩ => ⟨S_, .f32⟩
  | .hbm, ⟨84, _⟩ => ⟨S1x64x401408, .f32⟩
  | .hbm, ⟨85, _⟩ => ⟨S1x64x401408, .f32⟩
  | .hbm, ⟨86, _⟩ => ⟨S64x401408, .f32⟩
  | .hbm, ⟨87, _⟩ => ⟨S64x128x56x56, .f32⟩
  | _, _ => ⟨S64x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call1_cst : Ref sig .tc := ⟨.hbm, 15, rfl⟩
abbrev main_call1_v0 : Ref sig .tc := ⟨.hbm, 16, rfl⟩
abbrev main_call1_v1 : Ref sig .tc := ⟨.hbm, 17, rfl⟩
abbrev main_call1_cst_0 : Ref sig .tc := ⟨.hbm, 18, rfl⟩
abbrev main_call1_v2 : Ref sig .tc := ⟨.hbm, 19, rfl⟩
abbrev main_call1_v3 : Ref sig .tc := ⟨.hbm, 20, rfl⟩
abbrev main_call1_cst_1 : Ref sig .tc := ⟨.hbm, 21, rfl⟩
abbrev main_call1_call0_v0 : Ref sig .tc := ⟨.hbm, 22, rfl⟩
abbrev main_call1_call0_v1 : Ref sig .tc := ⟨.hbm, 23, rfl⟩
abbrev main_call1_v4 : Ref sig .tc := ⟨.hbm, 24, rfl⟩
abbrev main_call1_v5 : Ref sig .tc := ⟨.hbm, 25, rfl⟩
abbrev main_call1_cst_2 : Ref sig .tc := ⟨.hbm, 26, rfl⟩
abbrev main_call1_v6 : Ref sig .tc := ⟨.hbm, 27, rfl⟩
abbrev main_call1_v7 : Ref sig .tc := ⟨.hbm, 28, rfl⟩
abbrev main_v9 : Ref sig .tc := ⟨.hbm, 29, rfl⟩
abbrev main_cst_1 : Ref sig .tc := ⟨.hbm, 30, rfl⟩
abbrev main_call2_cst : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_cst_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_4 : Ref sig .tc := ⟨.hbm, 48, rfl⟩
abbrev main_v19 : Ref sig .tc := ⟨.hbm, 49, rfl⟩
abbrev main_v20 : Ref sig .tc := ⟨.hbm, 50, rfl⟩
abbrev main_cst_5 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call3_c : Ref sig .tc := ⟨.hbm, 64, rfl⟩
abbrev main_call3_v0 : Ref sig .tc := ⟨.hbm, 65, rfl⟩
abbrev main_call3_v1 : Ref sig .tc := ⟨.hbm, 66, rfl⟩
abbrev main_call3_c_0 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_c_1 : Ref sig .tc := ⟨.hbm, 72, rfl⟩
abbrev main_call3_c_2 : Ref sig .tc := ⟨.hbm, 73, rfl⟩
abbrev main_call3_v6 : Ref sig .tc := ⟨.hbm, 74, rfl⟩
abbrev main_call3_v7 : Ref sig .tc := ⟨.hbm, 75, rfl⟩
abbrev main_call3_v8 : Ref sig .tc := ⟨.hbm, 76, rfl⟩
abbrev main_call3_v9 : Ref sig .tc := ⟨.hbm, 77, rfl⟩
abbrev main_call3_v10 : Ref sig .tc := ⟨.hbm, 78, rfl⟩
abbrev main_call3_v11 : Ref sig .tc := ⟨.hbm, 79, rfl⟩
abbrev main_call3_c_3 : Ref sig .tc := ⟨.hbm, 80, rfl⟩
abbrev main_call3_v12 : Ref sig .tc := ⟨.hbm, 81, rfl⟩
abbrev main_call3_v13 : Ref sig .tc := ⟨.hbm, 82, rfl⟩
abbrev main_call3_cst : Ref sig .tc := ⟨.hbm, 83, rfl⟩
abbrev main_call3_v14 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩

abbrev nD : Nat := 1
abbrev τ : Topo := Topo.v7x

variable {F : FTy → Type} [FloatOps F]

class Facts₀ : Prop where
  shapeCasts_S64x128x56x56_S64x401408 : S64x128x56x56.ShapeCasts S64x401408
  bcast_S_S64x401408 : S_.BroadcastsInDim S64x401408 (![] : Fin 0 → Fin S64x401408.rank)
  bcast_S64x401408_S1x64x401408_1_2 : S64x401408.BroadcastsInDim S1x64x401408 (![1, 2] : Fin 2 → Fin S1x64x401408.rank)
  concatenates_S1x64x401408_S1x64x401408_S1x64x401408_S1x64x401408_S1x64x401408_S1x64x401408_S6x64x401408_d0 : Shape.Concatenates [S1x64x401408, S1x64x401408, S1x64x401408, S1x64x401408, S1x64x401408, S1x64x401408] S6x64x401408 0
  bcast_S401408_S1x1x401408_2 : S401408.BroadcastsInDim S1x1x401408 (![2] : Fin 1 → Fin S1x1x401408.rank)
  bcast_S1x1x401408_S1x64x401408_0_1_2 : S1x1x401408.BroadcastsInDim S1x64x401408 (![0, 1, 2] : Fin 3 → Fin S1x64x401408.rank)
  bcast_S_S1x64x401408 : S_.BroadcastsInDim S1x64x401408 (![] : Fin 0 → Fin S1x64x401408.rank)
  shapeCasts_S1x64x401408_S1x64x401408x1 : S1x64x401408.ShapeCasts S1x64x401408x1
  bcast_S_S1x64x401408x1 : S_.BroadcastsInDim S1x64x401408x1 (![] : Fin 0 → Fin S1x64x401408x1.rank)
  bcast_S1_S1x1x1x1_3 : S1.BroadcastsInDim S1x1x1x1 (![3] : Fin 1 → Fin S1x1x1x1.rank)
  bcast_S1x1x1x1_S1x64x401408x1_0_1_2_3 : S1x1x1x1.BroadcastsInDim S1x64x401408x1 (![0, 1, 2, 3] : Fin 4 → Fin S1x64x401408x1.rank)
  reducesTo_S1x64x401408x1_S1x64x401408_d3 : S1x64x401408x1.ReducesTo [3] S1x64x401408
  h_S_ : 0 < S_.numel
  shapeCasts_S1x64x401408_S64x401408 : S1x64x401408.ShapeCasts S64x401408
  shapeCasts_S64x401408_S64x128x56x56 : S64x401408.ShapeCasts S64x128x56x56
  gather_S6x64x401408_S1x64x401408x1_S1x64x401408_n_0_12_12_0_3_111_wf : GatherDims.WF S6x64x401408 S1x64x401408x1 S1x64x401408 [] [0] [1, 2] [0] [1, 2] 3 ![1, 1, 1]

variable [Facts₀]

def gather_S6x64x401408_S1x64x401408x1_S1x64x401408_n_0_12_12_0_3_111 : GatherDims S6x64x401408 S1x64x401408x1 S1x64x401408 where
  offsetDims := []
  collapsedSliceDims := [0]
  operandBatchingDims := [1, 2]
  startIndicesBatchingDims := [1, 2]
  startIndexMap := [0]
  indexVectorDim := 3
  sliceSizes := ![1, 1, 1]
  wf := gather_S6x64x401408_S1x64x401408x1_S1x64x401408_n_0_12_12_0_3_111_wf

class Facts : Prop extends Facts₀ where

variable [Facts]
-- ==== Proof.Spec.lean ====
/-
  The common value of the two programs, as ONE function of the argument arrays.

  The input `x : [64, 128, 56, 56]` is read as a matrix `xr : [64, 401408]` (the same elements in row-major order);
  column `n` carries an activation code `codes n`; entry `(b, n)` of the result is the activation the code selects,
  applied to `xr (b, n)`, and the result matrix is read back under the input's shape.

  The six activations, on extended reals: `max x 0`; the logistic function; `tanh`; `x` for `x > 0` and `eˣ − 1`
  otherwise; `x` for `x ≥ 0` and `c · x` otherwise (`c` the single-precision word nearest 1/100); and the
  tanh form of the Gaussian unit, `x · (½ · (1 + tanh (a · (x + b · x³))))`. The selection is a chain of tests
  `code = 5`, `code = 4`, …, `code = 1`, with `max x 0` for every other code.
-/
import Idealize.ShloMosaic.PureOps.Ideal
import Idealize.ShloMosaic.Lib.ValueIdx

noncomputable section

namespace Cert.Spec

open Idealize.ShloMosaic Idealize.ShloMosaic.ValueIdx

abbrev SX : Shape := ⟨4, ![64, 128, 56, 56]⟩
abbrev SR : Shape := ⟨2, ![64, 401408]⟩
abbrev SC : Shape := ⟨1, ![401408]⟩

/-- A single-precision word as the extended real it denotes. -/
abbrev lit (b : BitVec 32) : EReal := Ideal.ofBits .f32 b

/-- `x > 0` as a bit. -/
abbrev gt0 (x : EReal) : BitVec 1 := FloatOps.cmpf (F := Ideal) (φ := .f32) .ogt x (lit 0x00000000#32)
/-- `x ≥ 0` as a bit. -/
abbrev ge0 (x : EReal) : BitVec 1 := FloatOps.cmpf (F := Ideal) (φ := .f32) .oge x (lit 0x00000000#32)

def relu (x : EReal) : EReal := max x (lit 0x00000000#32)
def elu (x : EReal) : EReal := Scalar.select (gt0 x) x (Ideal.exp x - lit 0x3F800000#32)
def leaky (x : EReal) : EReal := Scalar.select (ge0 x) x (lit 0x3C23D70A#32 * x)
def gelu (x : EReal) : EReal :=
  x * (lit 0x3F000000#32 * (lit 0x3F800000#32 + Ideal.tanh (lit 0x3F4C422A#32 * (x + lit 0x3D372713#32 * (x * (x * x))))))

/-- The activation a code selects, applied to `x`. -/
def act (code : BitVec 32) (x : EReal) : EReal :=
  Scalar.select (IntOp.cmpi .eq code 5#32) (gelu x)
    (Scalar.select (IntOp.cmpi .eq code 4#32) (leaky x)
      (Scalar.select (IntOp.cmpi .eq code 3#32) (elu x)
        (Scalar.select (IntOp.cmpi .eq code 2#32) (Ideal.tanh x)
          (Scalar.select (IntOp.cmpi .eq code 1#32) (Ideal.logistic x) (relu x)))))

/-- The result as a matrix: entry `(b, n)` is the activation of code `n` at `xr (b, n)`. -/
def H (xr : SR.Idx → EReal) (codes : SC.Idx → BitVec 32) : SR.Idx → EReal :=
  fun i => act (codes (ix1 (⟨(i 1).val, idx2_lt1 i⟩ : Fin 401408))) (xr i)

theorem H_apply (xr : SR.Idx → EReal) (codes : SC.Idx → BitVec 32) (b : Fin 64) (n : Fin 401408) :
    H xr codes (ix2 b n) = act (codes (ix1 n)) (xr (ix2 b n)) := rfl

theorem castXR : SX.ShapeCasts SR := by decide
theorem castRX : SR.ShapeCasts SX := by decide

/-- The result under the input's shape. -/
def G (x : SX.Idx → EReal) (codes : SC.Idx → BitVec 32) : SX.Idx → EReal :=
  shapeCast SX (H (shapeCast SR x castXR) codes) castRX

end Cert.Spec

end
-- ==== Proof.KernelBody.lean ====
/-
  The kernel body's result at an index.

  At a grid point the body holds a [64, 6272] block `x0` of the matrix and the matching [1, 6272] block `x1` of the
  codes. It loads both whole, lays the one row of codes over the 64 rows, computes the six activations of every
  element, and stores one value per element, chosen by the tests `code = 5`, `code = 4`, …, `code = 1` in that order,
  `max x 0` if none holds. Entry `(p, q)` of what it stores is therefore the activation that code `x1 (0, q)` selects,
  applied to `x0 (p, q)`.
-/
import proofs.«412315_j27221502722284_1_alg».proof.Proof.Gen.KernelIdeal.Frame
import proofs.«412315_j27221502722284_1_alg».proof.Proof.Spec
import Idealize.ShloMosaic.Lib.Pipeline.Value
import Idealize.ShloMosaic.Lib.ValueLayout
import Idealize.ShloMosaic.Lib.ValueIdx

noncomputable section

namespace Cert.KernelIdeal.KBody

open Cert.KernelIdeal Cert.KernelIdeal.Gen Idealize.ShloMosaic Idealize.ShloMosaic.ValueIdx

/-- The zero offsets of a whole-block access. -/
theorem zeroOffsets : (![0, 0] : Fin 2 → Nat) = fun _ => 0 := funext fun a => by fin_cases a <;> rfl

/-- An integer comparison at an index compares the words. -/
theorem cmpi_at {s : Shape} {w : Nat} (pr : CmpIPredicate) (a b : IVec s w) (i : s.Idx) :
    cmpi pr a b i = IntOp.cmpi pr (a i) (b i) := rfl

/-- The codes' one row laid over the 64 rows reads, at `(p, q)`, the row at `q`. -/
theorem codes_apply (x1 : Vec Ideal S1x6272 .i32) (p : Fin 64) (q : Fin 6272) :
    k0_pay3 (F := Ideal) x1 (ix2 p q) = x1 (ix2 (0 : Fin 1) q) := by
  unfold k0_pay3
  rw [shapeCast_self, shapeCast_self]
  exact broadcastTo_1b_ab_apply (a := 64) (b := 6272) x1 _ p q

/-- The stored block at `(p, q)`: the activation the code at column `q` selects, applied to the element at `(p, q)`. -/
theorem out_apply (x0 : Vec Ideal S64x6272 .f32) (x1 : Vec Ideal S1x6272 .i32) (p : Fin 64) (q : Fin 6272) :
    out0_2 (F := Ideal) x0 x1 (ix2 p q) = Cert.Spec.act (x1 (ix2 (0 : Fin 1) q)) (x0 (ix2 p q)) := by
  unfold out0_2
  rw [View.canon_unit_zero zeroOffsets]
  simp only [View.ld_unit_zero (S := S64x6272) zeroOffsets, View.ld_unit_zero (S := S1x6272) zeroOffsets]
  have hc := codes_apply x1 p q
  unfold k0_pay1 k0_pay4 k0_pay5 k0_pay6 k0_pay2
  simp only [shapeCast_self]
  simp only [select_apply, cmpi_at, cmpf_apply, broadcast_apply, hc]
  rfl

end Cert.KernelIdeal.KBody

end
-- ==== Proof.KernelValue.lean ====
/-
  The kernel's result as the common value of its argument arrays.

  The program reads the input as a [64, 401408] matrix and the codes as a [1, 401408] row, runs a grid of 64 points,
  and reads the result matrix back under the input's shape. Point `t` handles columns `6272·t … 6272·t + 6271`: all 64
  rows of the matrix, and the same columns of the row of codes. What it writes back is, entry by entry, the activation
  the column's code selects applied to the matrix entry, which is those columns of one whole-matrix function. The 64
  column blocks tile the matrix, so the result matrix is that function, and the result array is it under the input's shape.
-/
import proofs.«412315_j27221502722284_1_alg».proof.Proof.KernelBody
import Idealize.ShloMosaic.Lib.Pipeline.Value
import Idealize.ShloMosaic.Lib.Tactic

set_option maxRecDepth 16384

noncomputable section

namespace Cert.KernelIdeal.KVal

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The arrays the region reads -/

/-- The input as a matrix, in row-major order. -/
abbrev xmat (c : Dev nD) : S64x401408.Idx → EReal :=
  shapeCast S64x401408 (m ((c : Thread nD τ).loc main_arg0)) shapeCasts_S64x128x56x56_S64x401408

/-- The codes as a one-row matrix. -/
abbrev codeRow (c : Dev nD) : S1x401408.Idx → BitVec 32 :=
  shapeCast S1x401408 (m ((c : Thread nD τ).loc main_arg1)) shapeCasts_S401408_S1x401408

/-- The region finds the input laid as a matrix … -/
theorem V_matrix (c : Dev nD) : (V m c main_v0 : S64x401408.Idx → EReal) = xmat m c := by
  show StableHlo.after hostOps0 (fun b => m (c, b)) (Proc.devRef .tc main_v0) = _
  after_results
  rfl

/-- … and the codes laid as a row. -/
theorem V_codes (c : Dev nD) : (V m c main_v1 : S1x401408.Idx → BitVec 32) = codeRow m c := by
  show StableHlo.after hostOps0 (fun b => m (c, b)) (Proc.devRef .tc main_v1) = _
  after_results
  rfl

/-- The row of codes at column `n` is the code vector at `n`. -/
theorem codeRow_apply (c : Dev nD) (n : Fin 401408) :
    codeRow m c (ix2 (0 : Fin 1) n) = (m ((c : Thread nD τ).loc main_arg1) : S401408.Idx → BitVec 32) (ix1 n) :=
  shapeCast_apply _ shapeCasts_S401408_S1x401408 (ix2 (0 : Fin 1) n) (ix1 n) (by
    rw [Shape.rowMajor_val_two, Shape.rowMajor_val_one]; show n.val = 0 * 401408 + n.val; omega)

/-! ## The grid's column blocks -/

/-- Every window's block at point `t` starts at row 0 and at column block `t`. -/
theorem block_index : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- An index of the matrix is in point `t`'s block iff each coordinate is in the block's range on its axis. -/
theorem mem_block (t : Fin cfg0.N) (i : S64x401408.Idx) :
    i ∈ ((cfg0.win 2).blk t).view.set ↔ ∀ a : Fin 2, win0_2.index t a * S64x6272.size a ≤ (i a).val ∧ (i a).val < win0_2.index t a * S64x6272.size a + S64x6272.size a := by
  show i ∈ ((View.whole main_v2).slice (win0_2.rect t)).set ↔ _
  rw [View.set_slice_whole, Rect.mem_set_unit]
  exact Iff.rfl

/-- Column `n` lies in the block of point `n / 6272`: the 64 column blocks tile the matrix. -/
theorem blocks_cover (i : S64x401408.Idx) :
    ∃ t : Fin cfg0.N, (cfg0.win 2).flush t = true ∧ i ∈ ((cfg0.win 2).blk t).view.set := by
  have hi0 : (i 0).val < 64 := (i 0).isLt
  have hi1 : (i 1).val < 401408 := (i 1).isLt
  have hN : cfg0.N = 64 := N_0
  let t : Fin cfg0.N := ⟨(i 1).val / 6272, by rw [hN]; omega⟩
  obtain ⟨-, -, -, -, e0, e1⟩ := block_index t
  have e1' : win0_2.index t (1 : Fin 2) = (i 1).val / 6272 := e1
  refine ⟨t, flush0_2 t, ?_⟩
  rw [mem_block]
  intro a
  match a with
  | ⟨0, _⟩ => show win0_2.index t (0 : Fin 2) * 64 ≤ (i 0).val ∧ (i 0).val < win0_2.index t (0 : Fin 2) * 64 + 64; omega
  | ⟨1, _⟩ => show win0_2.index t (1 : Fin 2) * 6272 ≤ (i 1).val ∧ (i 1).val < win0_2.index t (1 : Fin 2) * 6272 + 6272; omega

/-! ## What a point writes back -/

/-- The result matrix: entry `(b, n)` is the activation of code `n` at the matrix entry `(b, n)`. -/
abbrev resultMatrix (c : Dev nD) : S64x401408.Idx → EReal :=
  Cert.Spec.H (xmat m c) (m ((c : Thread nD τ).loc main_arg1))

/-- Point `t` writes back its columns of the result matrix. -/
theorem flushed_eq (c : Dev nD) (t : Fin cfg0.N) :
    (dats m 0 c).flushed 2 t = ((cfg0.win 2).blk t).view.read (Elt Ideal) (resultMatrix m c) := by
  show (cfg0.win 2).cut (grid0.coords t) ((dats m 0 c).after 2 t) = _
  rw [after0_2]
  obtain ⟨e00, e01, e10, e11, e20, e21⟩ := block_index t
  funext j
  obtain ⟨p, q, rfl⟩ : ∃ (p : Fin 64) (q : Fin 6272), j = ix2 p q := ⟨j 0, j 1, eq_ix2 j⟩
  refine (KBody.out_apply (iblk m c 0 t) (iblk m c 1 t) p q).trans ?_
  show Cert.Spec.act (V m c main_v1 (((cfg0.win 1).blk t).view.emb (ix2 (0 : Fin 1) q)))
      (V m c main_v0 (((cfg0.win 0).blk t).view.emb (ix2 p q)))
    = Cert.Spec.act ((m ((c : Thread nD τ).loc main_arg1) : S401408.Idx → BitVec 32)
        (ix1 (⟨((((cfg0.win 2).blk t).view.emb (ix2 p q) : S64x401408.Idx) 1).val, idx2_lt1 _⟩ : Fin 401408)))
      (xmat m c (((cfg0.win 2).blk t).view.emb (ix2 p q)))
  have hx : ((cfg0.win 0).blk t).view.emb (ix2 p q) = ((cfg0.win 2).blk t).view.emb (ix2 p q) := by
    funext a; apply Fin.ext
    match a with
    | ⟨0, _⟩ => show win0_0.index t (0 : Fin 2) * 64 + 1 * p.val = win0_2.index t (0 : Fin 2) * 64 + 1 * p.val; rw [e00, e20]
    | ⟨1, _⟩ => show win0_0.index t (1 : Fin 2) * 6272 + 1 * q.val = win0_2.index t (1 : Fin 2) * 6272 + 1 * q.val; rw [e01, e21]
  have hcol : ((cfg0.win 1).blk t).view.emb (ix2 (0 : Fin 1) q)
      = ix2 (0 : Fin 1) (⟨((((cfg0.win 2).blk t).view.emb (ix2 p q) : S64x401408.Idx) 1).val, idx2_lt1 _⟩ : Fin 401408) := by
    funext a; apply Fin.ext
    match a with
    | ⟨0, _⟩ => show win0_1.index t (0 : Fin 2) * 1 + 1 * 0 = 0; rw [e10]
    | ⟨1, _⟩ => show win0_1.index t (1 : Fin 2) * 6272 + 1 * q.val = win0_2.index t (1 : Fin 2) * 6272 + 1 * q.val; rw [e11, e21]
  rw [V_matrix m c, V_codes m c, hx, hcol, codeRow_apply m c]

/-! ## The result matrix, the result array, the run -/

/-- The result matrix after the run: the blocks tile it, so it is the whole-matrix function. -/
theorem final_matrix (c : Dev nD) : (dats m 0 c).arrAt 2 cfg0.N = resultMatrix m c :=
  (dats m 0 c).arrAt_eq_of_cover 2 (resultMatrix m c) (fun t _ => flushed_eq m c t) blocks_cover

/-- The result array: the result matrix read under the input's shape. -/
theorem result_eq (c : Dev nD) :
    Pipeline.afterTail₀ cfgs (dats m) 0 (V0 m) [hostOps1] c main_v3
      = Cert.Spec.G (m ((c : Thread nD τ).loc main_arg0)) (m ((c : Thread nD τ).loc main_arg1)) := by
  unfold Pipeline.afterTail₀
  show StableHlo.after hostOps1 _ (Proc.devRef .tc main_v3) = _
  after_results
  rw [(Pipeline.withArrays_arr spec0 launch0.win.arr_inj c _ _ 2).trans (final_matrix m c)]
  rfl

/-- The run: the result array is the common value of the argument arrays, and the arguments end as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (Pipeline.mem_restRefs_of main_v3 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KVal

end
-- ==== Proof.RefTermDef.lean ====
/-
  The reference's result as ONE pure term of its two argument arrays, stage by stage.

  `xr` is the input read as a [64, 401408] matrix. Six matrices are computed from it, one per activation; each is laid
  as a [1, 64, 401408] slab and the slabs are stacked along a new leading axis into [6, 64, 401408]. The codes are
  laid along the last axis of a [1, 64, 401408] array of indices; a negative index has 6 added; an index is in range
  when it lies in [0, 5]; the gather reads, at (0, b, n), the slab the index names at (b, n); out-of-range positions
  are filled with a fixed word. The result is read back as [64, 401408] and then under the input's shape.
-/
import proofs.«412315_j27221502722284_1_alg».proof.ReferenceIdeal

noncomputable section

namespace Cert.ReferenceIdeal.RefTerm

open Idealize.ShloMosaic Cert.ReferenceIdeal Cert.ReferenceIdeal.Facts₀

variable {F : FTy → Type} [FloatOps F] [Cert.ReferenceIdeal.Facts]

/-- A scalar word laid over the whole matrix. -/
def splat (b : BitVec 32) : FVec F S64x401408 .f32 :=
  broadcastInDim S64x401408 ![] bcast_S_S64x401408 (constant S_ .f32 b)

/-- The input as a matrix. -/
def xr (x : FVec F S64x128x56x56 .f32) : FVec F S64x401408 .f32 :=
  shapeCast S64x401408 x shapeCasts_S64x128x56x56_S64x401408

def reluM (v : FVec F S64x401408 .f32) : FVec F S64x401408 .f32 := maximumf v (splat 0x00000000#32)

def sigmM (v : FVec F S64x401408 .f32) : FVec F S64x401408 .f32 :=
  Host.divf (splat 0x3F800000#32) (addf (splat 0x3F800000#32) (Host.exp (Host.negf v)))

def tanhM (v : FVec F S64x401408 .f32) : FVec F S64x401408 .f32 := Host.tanh v

def eluM (v : FVec F S64x401408 .f32) : FVec F S64x401408 .f32 :=
  select (cmpf .ogt v (splat 0x00000000#32)) v
    (mulf (splat 0x3F800000#32)
      (Host.expm1 (select (cmpf .ogt v (splat 0x00000000#32))
        (broadcastInDim S64x401408 ![] bcast_S_S64x401408 (id (constant S_ .f32 0x00000000#32))) v)))

def leakyM (v : FVec F S64x401408 .f32) : FVec F S64x401408 .f32 :=
  select (cmpf .oge v (splat 0x00000000#32)) v
    (mulf (broadcastInDim S64x401408 ![] bcast_S_S64x401408 (id (constant S_ .f32 0x3C23D70A#32))) v)

def geluM (v : FVec F S64x401408 .f32) : FVec F S64x401408 .f32 :=
  mulf v (mulf (splat 0x3F000000#32) (addf (splat 0x3F800000#32)
    (Host.tanh (mulf (splat 0x3F4C422A#32) (addf v (mulf (splat 0x3D372713#32) (mulf (mulf v v) v)))))))

/-- A matrix as a one-slab stack. -/
def slab (v : FVec F S64x401408 .f32) : FVec F S1x64x401408 .f32 :=
  broadcastInDim S1x64x401408 ![1, 2] bcast_S64x401408_S1x64x401408_1_2 v

/-- The six activation matrices, stacked. -/
def stacked (v : FVec F S64x401408 .f32) : FVec F S6x64x401408 .f32 :=
  concatenate S6x64x401408 0 [⟨S1x64x401408, slab (reluM v)⟩, ⟨S1x64x401408, slab (sigmM v)⟩, ⟨S1x64x401408, slab (tanhM v)⟩,
    ⟨S1x64x401408, slab (eluM v)⟩, ⟨S1x64x401408, slab (leakyM v)⟩, ⟨S1x64x401408, slab (geluM v)⟩]
    concatenates_S1x64x401408_S1x64x401408_S1x64x401408_S1x64x401408_S1x64x401408_S1x64x401408_S6x64x401408_d0

/-- The codes laid along the last axis. -/
def idx0 (codes : IVec S401408 32) : IVec S1x64x401408 32 :=
  broadcastInDim S1x64x401408 ![0, 1, 2] bcast_S1x1x401408_S1x64x401408_0_1_2
    (broadcastInDim S1x1x401408 ![2] bcast_S401408_S1x1x401408_2 codes)

/-- A negative index has the stack's height added. -/
def idx1 (codes : IVec S401408 32) : IVec S1x64x401408 32 :=
  select (cmpi .slt (idx0 codes) (broadcastInDim S1x64x401408 ![] bcast_S_S1x64x401408 (constantI S_ 32 0#32)))
    (addi (idx0 codes) (broadcastInDim S1x64x401408 ![] bcast_S_S1x64x401408 (constantI S_ 32 6#32))) (idx0 codes)

/-- The indices as a column of one-word index vectors. -/
def idx2 (codes : IVec S401408 32) : IVec S1x64x401408x1 32 :=
  shapeCast S1x64x401408x1 (idx1 codes) shapeCasts_S1x64x401408_S1x64x401408x1

/-- Where the index lies in [0, 5]. -/
def inRange (codes : IVec S401408 32) : IVec S1x64x401408 1 :=
  Host.reduce IntOp.andi
    (andi (cmpi .sge (idx2 codes) (broadcastInDim S1x64x401408x1 ![] bcast_S_S1x64x401408x1 (constantI S_ 32 0#32)))
      (cmpi .sle (idx2 codes) (broadcastInDim S1x64x401408x1 ![0, 1, 2, 3] bcast_S1x1x1x1_S1x64x401408x1_0_1_2_3
        (broadcastInDim S1x1x1x1 ![3] bcast_S1_S1x1x1x1_3 (constantI S1 32 5#32)))))
    (constantI S_ 1 1#1) reducesTo_S1x64x401408x1_S1x64x401408_d3 h_S_

/-- The selected slab entries, with the fill word where the index is out of range. -/
def taken (x : FVec F S64x128x56x56 .f32) (codes : IVec S401408 32) : FVec F S1x64x401408 .f32 :=
  select (inRange codes)
    (Host.gather gather_S6x64x401408_S1x64x401408x1_S1x64x401408_n_0_12_12_0_3_111 (stacked (xr x)) (idx2 codes))
    (broadcastInDim S1x64x401408 ![] bcast_S_S1x64x401408 (constant S_ .f32 0x7FC00000#32))

/-- The reference's result. -/
def refOut (x : FVec F S64x128x56x56 .f32) (codes : IVec S401408 32) : FVec F S64x128x56x56 .f32 :=
  shapeCast S64x128x56x56 (shapeCast S64x401408 (taken x codes) shapeCasts_S1x64x401408_S64x401408)
    shapeCasts_S64x401408_S64x128x56x56

end Cert.ReferenceIdeal.RefTerm

end
-- ==== Proof.RefRun.lean ====
/-
  The reference's run, written out.

  The reference computes, from the input read as a [64, 401408] matrix, six matrices (the ramp, the logistic
  function, the hyperbolic tangent, the exponential linear unit, the leaky ramp and the tanh form of the Gaussian
  error linear unit), lays each as a one-slab stack, concatenates the six slabs along a new leading axis, and
  reads, at every position, the slab its code names (a gather along the leading axis, with the usual wrap of a
  negative index and a fill word where the index is out of range). Several of these steps are calls of small
  functions (the ramp, the exponential linear unit — which itself calls two select helpers —, the leaky ramp, the
  gather along an axis); a call means the callee's operations on the call's own buffers, so the whole program is
  ONE straight line of 86 operations, `ops` below, in call order.

  `main_eq`: the program is that line. `run`: every execution ends with each buffer at the line's fold over the
  launch contents. `out_eq`: at the result buffer the fold is the staged term `RefTerm.refOut` of the two argument
  arrays, by computation; `arg0_eq`, `arg1_eq`: no operation writes an argument buffer.
-/
import proofs.«412315_j27221502722284_1_alg».proof.Proof.Gen.ReferenceIdeal
import proofs.«412315_j27221502722284_1_alg».proof.Proof.RefTermDef
import Idealize.ShloMosaic.Lib.StableHlo.Run

noncomputable section

namespace Cert.ReferenceIdeal.RefRun

open Idealize.ShloMosaic Idealize.ShloMosaic.TcCoe Idealize.ShloMosaic.StableHlo Idealize.SL.Sem Cert.ReferenceIdeal Cert.ReferenceIdeal.Facts₀

variable {F : FTy → Type} [FloatOps F]

/-- The program's 86 operations in order, each call replaced by its callee's operations over the call's buffers:
    the reshape of the input; the ramp (3); the logistic function (8); the hyperbolic tangent (1); the exponential
    linear unit (15: its own seven, the first select helper's three, its own four, the second helper's one); the
    leaky ramp's slope (1) and the leaky ramp (7: its own six, the select helper's one); the Gaussian unit (17);
    the six slabs and their concatenation (7); the codes laid along the last axis (2); the gather along the leading
    axis (22); the two reshapes back (2). -/
abbrev ops : List (HloOp τ sig (Elt F)) :=
  [
    reshape main_arg0 main_v0 rfl shapeCasts_S64x128x56x56_S64x401408,
    TRef.nullary main_call0.cst (constant S_ .f32 0x00000000#32),
    TRef.unary main_call0.cst main_call0.v0 (broadcastInDim S64x401408 ![] bcast_S_S64x401408),
    TRef.binary (.of main_v0) main_call0.v0 main_call0.v1 maximumf,
    unary main_v0 main_v2 (Host.negf : (⟨S64x401408, .f32⟩ : BufTy).Contents (Elt F) → (⟨S64x401408, .f32⟩ : BufTy).Contents (Elt F)),
    unary main_v2 main_v3 (Host.exp : (⟨S64x401408, .f32⟩ : BufTy).Contents (Elt F) → (⟨S64x401408, .f32⟩ : BufTy).Contents (Elt F)),
    nullary main_cst (constant S_ .f32 0x3F800000#32),
    unary main_cst main_v4 (broadcastInDim S64x401408 ![] bcast_S_S64x401408 : (⟨S_, .f32⟩ : BufTy).Contents (Elt F) → (⟨S64x401408, .f32⟩ : BufTy).Contents (Elt F)),
    binary main_v4 main_v3 main_v5 (addf : (⟨S64x401408, .f32⟩ : BufTy).Contents (Elt F) → (⟨S64x401408, .f32⟩ : BufTy).Contents (Elt F) → (⟨S64x401408, .f32⟩ : BufTy).Contents (Elt F)),
    nullary main_cst_0 (constant S_ .f32 0x3F800000#32),
    unary main_cst_0 main_v6 (broadcastInDim S64x401408 ![] bcast_S_S64x401408 : (⟨S_, .f32⟩ : BufTy).Contents (Elt F) → (⟨S64x401408, .f32⟩ : BufTy).Contents (Elt F)),
    binary main_v6 main_v5 main_v7 (Host.divf : (⟨S64x401408, .f32⟩ : BufTy).Contents (Elt F) → (⟨S64x401408, .f32⟩ : BufTy).Contents (Elt F) → (⟨S64x401408, .f32⟩ : BufTy).Contents (Elt F)),
    unary main_v0 main_v8 (Host.tanh : (⟨S64x401408, .f32⟩ : BufTy).Contents (Elt F) → (⟨S64x401408, .f32⟩ : BufTy).Contents (Elt F)),
    TRef.nullary main_call1.cst (constant S_ .f32 0x00000000#32),
    TRef.unary main_call1.cst main_call1.v0 (broadcastInDim S64x401408 ![] bcast_S_S64x401408),
    TRef.binary (.of main_v0) main_call1.v0 main_call1.v1 (cmpf .ogt),
    TRef.nullary main_call1.cst_0 (constant S_ .f32 0x00000000#32),
    TRef.unary main_call1.cst_0 main_call1.v2 (broadcastInDim S64x401408 ![] bcast_S_S64x401408),
    TRef.binary (.of main_v0) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S64x401408 ![] bcast_S_S64x401408),
    TRef.ternary main_call1.v3 main_call1.call0.v1 (.of main_v0) main_call1.call0.v2 select,
    TRef.unary main_call1.call0.v2 main_call1.v5 Host.expm1,
    TRef.nullary main_call1.cst_2 (constant S_ .f32 0x3F800000#32),
    TRef.unary main_call1.cst_2 main_call1.v6 (broadcastInDim S64x401408 ![] bcast_S_S64x401408),
    TRef.binary main_call1.v6 main_call1.v5 main_call1.v7 mulf,
    TRef.ternary main_call1.v1 (.of main_v0) main_call1.v7 main_call1.call1.v0 select,
    nullary main_cst_1 (constant S_ .f32 0x3C23D70A#32),
    TRef.nullary main_call2.cst (constant S_ .f32 0x00000000#32),
    TRef.unary main_call2.cst main_call2.v0 (broadcastInDim S64x401408 ![] bcast_S_S64x401408),
    TRef.binary (.of main_v0) main_call2.v0 main_call2.v1 (cmpf .oge),
    TRef.unary (.of main_cst_1) main_call2.v2 id,
    TRef.unary main_call2.v2 main_call2.v3 (broadcastInDim S64x401408 ![] bcast_S_S64x401408),
    TRef.binary main_call2.v3 (.of main_v0) main_call2.v4 mulf,
    TRef.ternary main_call2.v1 (.of main_v0) main_call2.v4 main_call2.call0.v0 select,
    binary main_v0 main_v0 main_v11 (mulf : (⟨S64x401408, .f32⟩ : BufTy).Contents (Elt F) → (⟨S64x401408, .f32⟩ : BufTy).Contents (Elt F) → (⟨S64x401408, .f32⟩ : BufTy).Contents (Elt F)),
    binary main_v11 main_v0 main_v12 (mulf : (⟨S64x401408, .f32⟩ : BufTy).Contents (Elt F) → (⟨S64x401408, .f32⟩ : BufTy).Contents (Elt F) → (⟨S64x401408, .f32⟩ : BufTy).Contents (Elt F)),
    nullary main_cst_2 (constant S_ .f32 0x3D372713#32),
    unary main_cst_2 main_v13 (broadcastInDim S64x401408 ![] bcast_S_S64x401408 : (⟨S_, .f32⟩ : BufTy).Contents (Elt F) → (⟨S64x401408, .f32⟩ : BufTy).Contents (Elt F)),
    binary main_v13 main_v12 main_v14 (mulf : (⟨S64x401408, .f32⟩ : BufTy).Contents (Elt F) → (⟨S64x401408, .f32⟩ : BufTy).Contents (Elt F) → (⟨S64x401408, .f32⟩ : BufTy).Contents (Elt F)),
    binary main_v0 main_v14 main_v15 (addf : (⟨S64x401408, .f32⟩ : BufTy).Contents (Elt F) → (⟨S64x401408, .f32⟩ : BufTy).Contents (Elt F) → (⟨S64x401408, .f32⟩ : BufTy).Contents (Elt F)),
    nullary main_cst_3 (constant S_ .f32 0x3F4C422A#32),
    unary main_cst_3 main_v16 (broadcastInDim S64x401408 ![] bcast_S_S64x401408 : (⟨S_, .f32⟩ : BufTy).Contents (Elt F) → (⟨S64x401408, .f32⟩ : BufTy).Contents (Elt F)),
    binary main_v16 main_v15 main_v17 (mulf : (⟨S64x401408, .f32⟩ : BufTy).Contents (Elt F) → (⟨S64x401408, .f32⟩ : BufTy).Contents (Elt F) → (⟨S64x401408, .f32⟩ : BufTy).Contents (Elt F)),
    unary main_v17 main_v18 (Host.tanh : (⟨S64x401408, .f32⟩ : BufTy).Contents (Elt F) → (⟨S64x401408, .f32⟩ : BufTy).Contents (Elt F)),
    nullary main_cst_4 (constant S_ .f32 0x3F800000#32),
    unary main_cst_4 main_v19 (broadcastInDim S64x401408 ![] bcast_S_S64x401408 : (⟨S_, .f32⟩ : BufTy).Contents (Elt F) → (⟨S64x401408, .f32⟩ : BufTy).Contents (Elt F)),
    binary main_v19 main_v18 main_v20 (addf : (⟨S64x401408, .f32⟩ : BufTy).Contents (Elt F) → (⟨S64x401408, .f32⟩ : BufTy).Contents (Elt F) → (⟨S64x401408, .f32⟩ : BufTy).Contents (Elt F)),
    nullary main_cst_5 (constant S_ .f32 0x3F000000#32),
    unary main_cst_5 main_v21 (broadcastInDim S64x401408 ![] bcast_S_S64x401408 : (⟨S_, .f32⟩ : BufTy).Contents (Elt F) → (⟨S64x401408, .f32⟩ : BufTy).Contents (Elt F)),
    binary main_v21 main_v20 main_v22 (mulf : (⟨S64x401408, .f32⟩ : BufTy).Contents (Elt F) → (⟨S64x401408, .f32⟩ : BufTy).Contents (Elt F) → (⟨S64x401408, .f32⟩ : BufTy).Contents (Elt F)),
    binary main_v0 main_v22 main_v23 (mulf : (⟨S64x401408, .f32⟩ : BufTy).Contents (Elt F) → (⟨S64x401408, .f32⟩ : BufTy).Contents (Elt F) → (⟨S64x401408, .f32⟩ : BufTy).Contents (Elt F)),
    unary main_v1 main_v24 (broadcastInDim S1x64x401408 ![1, 2] bcast_S64x401408_S1x64x401408_1_2 : (⟨S64x401408, .f32⟩ : BufTy).Contents (Elt F) → (⟨S1x64x401408, .f32⟩ : BufTy).Contents (Elt F)),
    unary main_v7 main_v25 (broadcastInDim S1x64x401408 ![1, 2] bcast_S64x401408_S1x64x401408_1_2 : (⟨S64x401408, .f32⟩ : BufTy).Contents (Elt F) → (⟨S1x64x401408, .f32⟩ : BufTy).Contents (Elt F)),
    unary main_v8 main_v26 (broadcastInDim S1x64x401408 ![1, 2] bcast_S64x401408_S1x64x401408_1_2 : (⟨S64x401408, .f32⟩ : BufTy).Contents (Elt F) → (⟨S1x64x401408, .f32⟩ : BufTy).Contents (Elt F)),
    unary main_v9 main_v27 (broadcastInDim S1x64x401408 ![1, 2] bcast_S64x401408_S1x64x401408_1_2 : (⟨S64x401408, .f32⟩ : BufTy).Contents (Elt F) → (⟨S1x64x401408, .f32⟩ : BufTy).Contents (Elt F)),
    unary main_v10 main_v28 (broadcastInDim S1x64x401408 ![1, 2] bcast_S64x401408_S1x64x401408_1_2 : (⟨S64x401408, .f32⟩ : BufTy).Contents (Elt F) → (⟨S1x64x401408, .f32⟩ : BufTy).Contents (Elt F)),
    unary main_v23 main_v29 (broadcastInDim S1x64x401408 ![1, 2] bcast_S64x401408_S1x64x401408_1_2 : (⟨S64x401408, .f32⟩ : BufTy).Contents (Elt F) → (⟨S1x64x401408, .f32⟩ : BufTy).Contents (Elt F)),
    nary ![main_v24, main_v25, main_v26, main_v27, main_v28, main_v29] main_v30 (fun u => concatenate S6x64x401408 0 [⟨S1x64x401408, u 0⟩, ⟨S1x64x401408, u 1⟩, ⟨S1x64x401408, u 2⟩, ⟨S1x64x401408, u 3⟩, ⟨S1x64x401408, u 4⟩, ⟨S1x64x401408, u 5⟩] concatenates_S1x64x401408_S1x64x401408_S1x64x401408_S1x64x401408_S1x64x401408_S1x64x401408_S6x64x401408_d0),
    unary main_arg1 main_v31 (broadcastInDim S1x1x401408 ![2] bcast_S401408_S1x1x401408_2 : (⟨S401408, .i32⟩ : BufTy).Contents (Elt F) → (⟨S1x1x401408, .i32⟩ : BufTy).Contents (Elt F)),
    unary main_v31 main_v32 (broadcastInDim S1x64x401408 ![0, 1, 2] bcast_S1x1x401408_S1x64x401408_0_1_2 : (⟨S1x1x401408, .i32⟩ : BufTy).Contents (Elt F) → (⟨S1x64x401408, .i32⟩ : BufTy).Contents (Elt F)),
    TRef.nullary main_call3.c (constantI S_ 32 0#32),
    TRef.unary main_call3.c main_call3.v0 (broadcastInDim S1x64x401408 ![] bcast_S_S1x64x401408),
    TRef.binary (.of main_v32) main_call3.v0 main_call3.v1 (cmpi .slt),
    TRef.nullary main_call3.c_0 (constantI S_ 32 6#32),
    TRef.unary main_call3.c_0 main_call3.v2 (broadcastInDim S1x64x401408 ![] bcast_S_S1x64x401408),
    TRef.binary (.of main_v32) main_call3.v2 main_call3.v3 addi,
    TRef.ternary main_call3.v1 main_call3.v3 (.of main_v32) main_call3.v4 select,
    TRef.reshape main_call3.v4 main_call3.v5 rfl shapeCasts_S1x64x401408_S1x64x401408x1,
    TRef.nullary main_call3.c_1 (constantI S1 32 5#32),
    TRef.nullary main_call3.c_2 (constantI S_ 32 0#32),
    TRef.unary main_call3.c_2 main_call3.v6 (broadcastInDim S1x64x401408x1 ![] bcast_S_S1x64x401408x1),
    TRef.binary main_call3.v5 main_call3.v6 main_call3.v7 (cmpi .sge),
    TRef.unary main_call3.c_1 main_call3.v8 (broadcastInDim S1x1x1x1 ![3] bcast_S1_S1x1x1x1_3),
    TRef.unary main_call3.v8 main_call3.v9 (broadcastInDim S1x64x401408x1 ![0, 1, 2, 3] bcast_S1x1x1x1_S1x64x401408x1_0_1_2_3),
    TRef.binary main_call3.v5 main_call3.v9 main_call3.v10 (cmpi .sle),
    TRef.binary main_call3.v7 main_call3.v10 main_call3.v11 andi,
    TRef.nullary main_call3.c_3 (constantI S_ 1 1#1),
    TRef.binary main_call3.v11 main_call3.c_3 main_call3.v12 (fun x v => Host.reduce IntOp.andi x v reducesTo_S1x64x401408x1_S1x64x401408_d3 h_S_),
    TRef.binary (.of main_v30) main_call3.v5 main_call3.v13 (fun x i => Host.gather gather_S6x64x401408_S1x64x401408x1_S1x64x401408_n_0_12_12_0_3_111 x i),
    TRef.nullary main_call3.cst (constant S_ .f32 0x7FC00000#32),
    TRef.unary main_call3.cst main_call3.v14 (broadcastInDim S1x64x401408 ![] bcast_S_S1x64x401408),
    TRef.ternary main_call3.v12 main_call3.v13 main_call3.v14 main_call3.v15 select,
    reshape main_v33 main_v34 rfl shapeCasts_S1x64x401408_S64x401408,
    reshape main_v34 main_v35 rfl shapeCasts_S64x401408_S64x128x56x56 ]

-- eighty-six binds re-associated: the rewrite under the chain recurses once per statement
set_option maxRecDepth 4096 in
set_option maxHeartbeats 1600000 in
/-- The program is that straight line: the callees' definitions unfolded at their calls, both sides are one chain
    of steps once sequencing is re-associated. -/
theorem main_eq (c : Dev nD) : main (F := F) c = seq ops := by
  simp only [main, fn_relu.body, fn_elu.body, fn_leaky_relu.body, fn_where.body, fn_where_0.body,
    fn_take_along_axis.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨
    reshape_bufs_sub .., nullary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., nullary_bufs_sub ..,
    unary_bufs_sub .., binary_bufs_sub .., unary_bufs_sub .., unary_bufs_sub .., binary_bufs_sub .., ternary_bufs_sub ..,
    binary_bufs_sub .., binary_bufs_sub .., nullary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., unary_bufs_sub ..,
    unary_bufs_sub .., unary_bufs_sub .., unary_bufs_sub .., unary_bufs_sub .., unary_bufs_sub .., nary_bufs_sub ..,
    unary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., reshape_bufs_sub ..⟩

/-- At the compiled mesh, for any float values, from any memory with zero counters: every weakly fair execution of
    the program terminates, and every final state has each buffer at the operations' fold over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

section SixOperands

variable {τ' : Topo} {sig' : RefSig} {Val : EltTy → Type} {x0 x1 x2 x3 x4 x5 y : Ref sig' .tc}

/-- An operation of six operands given as a literal family leaves, at its result buffer, its function applied to
    the six operands' contents, each read at its own reference (the family's value at each of the six indices
    written out), so that what each operand holds can be rewritten in turn. -/
theorem nary6_result'
    (f : ((k : Fin 6) → ((![x0, x1, x2, x3, x4, x5] : Fin 6 → Ref sig' .tc) k).ty.Contents Val) → y.ty.Contents Val) (hxs hy)
    (G : Valuation τ' sig' Val) :
    (nary (τ := τ') ![x0, x1, x2, x3, x4, x5] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
            (fun i => i.elim0))))))) := by
  rw [nary_result]; congr 1; funext k; fin_cases k <;> rfl

end SixOperands

attribute [local irreducible] Host.gather Host.reduce concatenate in
set_option maxRecDepth 16384 in
set_option maxHeartbeats 400000 in
/-- The fold at the result buffer is the staged term. The fold is unrolled; at each buffer read, the operation that
    writes it gives its function's value of what its operands hold and every other operation leaves what was there
    (two buffers told apart as references), down to the two argument arrays; the typed references' transports are
    along equations between equal types and are dropped. What is left is the operations' composed term, which is
    the staged term with its stages unfolded: equal by computation. The gather, the reduction and the concatenation
    are kept folded meanwhile: the equation never looks inside them. -/
theorem out_eq (V : Valuation τ sig (Elt F)) :
    after ops V (main_v35 : DevRef τ sig)
      = Cert.ReferenceIdeal.RefTerm.refOut (V (main_arg0 : DevRef τ sig)) (V (main_arg1 : DevRef τ sig)) := by
  simp (disch := decide) only [after_cons, after_nil,
      nullary_result', unary_result', binary_result', ternary_result', reshape_result', nary6_result',
      nullary_result_ne', unary_result_ne', binary_result_ne', ternary_result_ne', reshape_result_ne',
      nary_result_ne', TRef.toBuf, TRef.ofBuf, cast_eq]
  rfl

set_option maxRecDepth 16384 in
theorem arg0_eq (V : Valuation τ sig (Elt F)) :
    after ops V (main_arg0 : DevRef τ sig) = V (main_arg0 : DevRef τ sig) := by
  simp only [after_cons, after_nil]
  rfl

set_option maxRecDepth 16384 in
theorem arg1_eq (V : Valuation τ sig (Elt F)) :
    after ops V (main_arg1 : DevRef τ sig) = V (main_arg1 : DevRef τ sig) := by
  simp only [after_cons, after_nil]
  rfl

end Cert.ReferenceIdeal.RefRun

end
-- ==== Proof.LibTakeAlongAxis.lean ====
/-
  Selecting, entry by entry, one of K stacked matrices by an array of indices, read at an index.

  The selection is made of two pieces. A STACK: matrices of one common shape [A, B], each laid as a one-slab array
  [1, A, B], are joined along the leading axis into [K, A, B]. A GATHER with batching axes: for an array of
  indices [1, A, B, 1], the result at (0, a, b) is the stack's entry (r, a, b), where r is the index word at
  (0, a, b, 0) read as a signed integer and clamped into [0, K - 1]. The lemmas below read each piece at an index.
-/
import Idealize.ShloMosaic.PureOps.Ideal
import Idealize.ShloMosaic.Lib.ValueIdx

noncomputable section

namespace Cert.Proof.TakeAxis0

open Idealize.ShloMosaic Idealize.ShloMosaic.ValueIdx

/-! ## The gather with two batching axes -/

/-- The dimension numbers of the gather: operand [K, A, B], start indices [1, A, B, 1], result [1, A, B]; the
    operand's axis 0 is collapsed and is the one the start index names; axes 1 and 2 of the operand are batching
    axes, paired with axes 1 and 2 of the start indices; every slice has one element. -/
abbrev takeDims (K A B : Nat)
    (wf : GatherDims.WF ⟨3, ![K, A, B]⟩ ⟨4, ![1, A, B, 1]⟩ ⟨3, ![1, A, B]⟩ [] [0] [1, 2] [0] [1, 2] 3 ![1, 1, 1]) :
    GatherDims ⟨3, ![K, A, B]⟩ ⟨4, ![1, A, B, 1]⟩ ⟨3, ![1, A, B]⟩ where
  offsetDims := []
  collapsedSliceDims := [0]
  operandBatchingDims := [1, 2]
  startIndicesBatchingDims := [1, 2]
  startIndexMap := [0]
  indexVectorDim := 3
  sliceSizes := ![1, 1, 1]
  wf := wf

/-- An index word read as a signed integer and clamped into [0, K - 1]. -/
def row {K : Nat} (hK : 0 < K) {w : Nat} (b : BitVec w) : Fin K := ⟨min b.toInt.toNat (K - 1), by omega⟩

/-- A word whose unsigned value is below K, with K at most 2^31, is its own clamped signed reading. -/
theorem row_of_toNat_lt {K : Nat} (hK : 0 < K) (b : BitVec 32) (h : b.toNat < K) (hK' : K ≤ 2 ^ 31) :
    (row hK b).val = b.toNat := by
  have hi : b.toInt = (b.toNat : Int) := by
    rw [BitVec.toInt_eq_toNat_cond]
    split
    · rfl
    · omega
  show min b.toInt.toNat (K - 1) = b.toNat
  rw [hi, Int.toNat_natCast]
  omega

/-- THE GATHER READ AT (0, a, b): the operand at (r, a, b), r the index word at (0, a, b, 0) read signed and
    clamped into [0, K - 1]. -/
theorem gather_takeDims_apply {α : Type} {K A B w : Nat} (hK : 0 < K)
    (wf : GatherDims.WF ⟨3, ![K, A, B]⟩ ⟨4, ![1, A, B, 1]⟩ ⟨3, ![1, A, B]⟩ [] [0] [1, 2] [0] [1, 2] 3 ![1, 1, 1])
    (x : (⟨3, ![K, A, B]⟩ : Shape).Idx → α) (idx : IVec ⟨4, ![1, A, B, 1]⟩ w) (a : Fin A) (b : Fin B) :
    Host.gather (takeDims K A B wf) x idx (ix3 (0 : Fin 1) a b)
      = x (ix3 (row hK (idx (ix4 (0 : Fin 1) a b (0 : Fin 1)))) a b) := by
  unfold Host.gather
  congr 1
  funext c
  refine Fin.ext ?_
  match c with
  | ⟨0, _⟩ =>
    show (takeDims K A B wf).start (ix3 (0 : Fin 1) a b) idx 0 + (takeDims K A B wf).batchCoord (ix3 (0 : Fin 1) a b) 0
      + (takeDims K A B wf).offCoord (ix3 (0 : Fin 1) a b) 0 = _
    rw [GatherDims.batchCoord_eq_zero _ _ _ (show (0 : Fin 3) ∉ ([1, 2] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeDims K A B wf).startIndexMap from List.mem_singleton.mpr rfl)]
    have hsi : (takeDims K A B wf).siIdx (ix3 (0 : Fin 1) a b) ⟨List.idxOf (0 : Fin 3) (takeDims K A B wf).startIndexMap,
        List.idxOf_lt_length_iff.2 (List.mem_singleton.mpr rfl)⟩ = ix4 (0 : Fin 1) a b (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    have hm : (1 : Fin 3) ∈ (takeDims K A B wf).operandBatchingDims := show (1 : Fin 3) ∈ ([1, 2] : List (Fin 3)) by decide
    show (takeDims K A B wf).start (ix3 (0 : Fin 1) a b) idx 1 + (takeDims K A B wf).batchCoord (ix3 (0 : Fin 1) a b) 1
      + (takeDims K A B wf).offCoord (ix3 (0 : Fin 1) a b) 1 = _
    rw [GatherDims.start_batching _ _ _ _ hm,
      GatherDims.offCoord_eq_zero _ _ _ (fun h => ((GatherDims.mem_sKept _ _).mp h).2 hm)]
    simp only [Nat.add_zero, Nat.zero_add]
    unfold GatherDims.batchCoord
    rw [dif_pos hm]
    rfl
  | ⟨2, _⟩ =>
    have hm : (2 : Fin 3) ∈ (takeDims K A B wf).operandBatchingDims := show (2 : Fin 3) ∈ ([1, 2] : List (Fin 3)) by decide
    show (takeDims K A B wf).start (ix3 (0 : Fin 1) a b) idx 2 + (takeDims K A B wf).batchCoord (ix3 (0 : Fin 1) a b) 2
      + (takeDims K A B wf).offCoord (ix3 (0 : Fin 1) a b) 2 = _
    rw [GatherDims.start_batching _ _ _ _ hm,
      GatherDims.offCoord_eq_zero _ _ _ (fun h => ((GatherDims.mem_sKept _ _).mp h).2 hm)]
    simp only [Nat.add_zero, Nat.zero_add]
    unfold GatherDims.batchCoord
    rw [dif_pos hm]
    rfl

/-! ## A matrix laid as a one-slab stack -/

/-- THE ONE-SLAB STACK READ AT (0, a, b): the matrix at (a, b). -/
theorem slab_apply {α : Type} {A B : Nat} (hb : (⟨2, ![A, B]⟩ : Shape).BroadcastsInDim ⟨3, ![1, A, B]⟩ ![1, 2])
    (v : (⟨2, ![A, B]⟩ : Shape).Idx → α) (a : Fin A) (b : Fin B) :
    broadcastInDim ⟨3, ![1, A, B]⟩ ![1, 2] hb v (ix3 (0 : Fin 1) a b) = v (ix2 a b) := by
  unfold broadcastInDim
  congr 1
  funext c
  refine Fin.ext ?_
  match c with
  | ⟨0, _⟩ =>
    -- an extent-one axis reads coordinate 0, which is the only coordinate there
    split
    · rename_i h1
      have hA : A = 1 := h1
      have := a.isLt
      show 0 = a.val
      omega
    · rfl
  | ⟨1, _⟩ =>
    split
    · rename_i h1
      have hB : B = 1 := h1
      have := b.isLt
      show 0 = b.val
      omega
    · rfl

/-! ## Six one-slab pieces joined along the leading axis -/

/-- THE STACK READ AT (k, a, b): piece k at (0, a, b). -/
theorem concat6_apply {α : Type} {A B : Nat} (u0 u1 u2 u3 u4 u5 : (⟨3, ![1, A, B]⟩ : Shape).Idx → α)
    (h : Shape.Concatenates (([⟨⟨3, ![1, A, B]⟩, u0⟩, ⟨⟨3, ![1, A, B]⟩, u1⟩, ⟨⟨3, ![1, A, B]⟩, u2⟩, ⟨⟨3, ![1, A, B]⟩, u3⟩,
      ⟨⟨3, ![1, A, B]⟩, u4⟩, ⟨⟨3, ![1, A, B]⟩, u5⟩] : List ((s : Shape) × (s.Idx → α))).map (·.1)) ⟨3, ![6, A, B]⟩ 0)
    (k : Fin 6) (a : Fin A) (b : Fin B) :
    concatenate ⟨3, ![6, A, B]⟩ 0 [⟨⟨3, ![1, A, B]⟩, u0⟩, ⟨⟨3, ![1, A, B]⟩, u1⟩, ⟨⟨3, ![1, A, B]⟩, u2⟩, ⟨⟨3, ![1, A, B]⟩, u3⟩,
      ⟨⟨3, ![1, A, B]⟩, u4⟩, ⟨⟨3, ![1, A, B]⟩, u5⟩] h (ix3 k a b)
      = (![u0, u1, u2, u3, u4, u5] k) (ix3 (0 : Fin 1) a b) := by
  match k with
  | ⟨0, _⟩ =>
    unfold concatenate
    refine congrArg u0 ?_
    funext c
    refine Fin.ext ?_
    match c with
    | ⟨0, _⟩ => rfl
    | ⟨1, _⟩ => rfl
    | ⟨2, _⟩ => rfl
  | ⟨1, _⟩ =>
    unfold concatenate
    refine congrArg u1 ?_
    funext c
    refine Fin.ext ?_
    match c with
    | ⟨0, _⟩ => rfl
    | ⟨1, _⟩ => rfl
    | ⟨2, _⟩ => rfl
  | ⟨2, _⟩ =>
    unfold concatenate
    refine congrArg u2 ?_
    funext c
    refine Fin.ext ?_
    match c with
    | ⟨0, _⟩ => rfl
    | ⟨1, _⟩ => rfl
    | ⟨2, _⟩ => rfl
  | ⟨3, _⟩ =>
    unfold concatenate
    refine congrArg u3 ?_
    funext c
    refine Fin.ext ?_
    match c with
    | ⟨0, _⟩ => rfl
    | ⟨1, _⟩ => rfl
    | ⟨2, _⟩ => rfl
  | ⟨4, _⟩ =>
    unfold concatenate
    refine congrArg u4 ?_
    funext c
    refine Fin.ext ?_
    match c with
    | ⟨0, _⟩ => rfl
    | ⟨1, _⟩ => rfl
    | ⟨2, _⟩ => rfl
  | ⟨5, _⟩ =>
    unfold concatenate
    refine congrArg u5 ?_
    funext c
    refine Fin.ext ?_
    match c with
    | ⟨0, _⟩ => rfl
    | ⟨1, _⟩ => rfl
    | ⟨2, _⟩ => rfl

end Cert.Proof.TakeAxis0

end
-- ==== Proof.RefPointwise.lean ====
/-
  The reference's six activation matrices, entry by entry, on extended reals: each is the activation of the
  specification applied to the entry. A scalar word laid over the matrix reads that word everywhere; the host's
  quotient, exponential, negation and hyperbolic tangent are the textbook functions; `e^x − 1` is the difference;
  the word for one denotes 1, so a product with it is the other factor; and the cube `(x·x)·x` is `x·(x·x)`.
-/
import proofs.«412315_j27221502722284_1_alg».proof.Proof.RefTermDef
import proofs.«412315_j27221502722284_1_alg».proof.Proof.Spec
import proofs.«412315_j27221502722284_1_alg».proof.Proof.Gen.ReferenceIdeal
import Idealize.ShloMosaic.Lib.IdealHost
import Idealize.ShloMosaic.Lib.ValueIdx

noncomputable section

namespace Cert.ReferenceIdeal.RefPointwise

open Idealize.ShloMosaic Idealize.ShloMosaic.ValueIdx Cert.ReferenceIdeal Cert.ReferenceIdeal.RefTerm

theorem splat_apply (b : BitVec 32) (i : S64x401408.Idx) : splat (F := Ideal) b i = Ideal.ofBits .f32 b := by
  unfold splat
  rw [broadcastInDim_scalar_apply]
  rfl

theorem splat_id_apply (b : BitVec 32) (i : S64x401408.Idx) :
    broadcastInDim S64x401408 ![] Facts₀.bcast_S_S64x401408 (id (constant (F := Ideal) S_ .f32 b)) i = Ideal.ofBits .f32 b := by
  rw [broadcastInDim_scalar_apply]
  rfl

theorem reluM_apply (v : FVec Ideal S64x401408 .f32) (i : S64x401408.Idx) : reluM v i = Cert.Spec.relu (v i) := by
  unfold reluM Cert.Spec.relu
  rw [maximumf_apply, splat_apply]

theorem tanhM_apply (v : FVec Ideal S64x401408 .f32) (i : S64x401408.Idx) : tanhM v i = Ideal.tanh (v i) := rfl

theorem sigmM_apply (v : FVec Ideal S64x401408 .f32) (i : S64x401408.Idx) : sigmM v i = Ideal.logistic (v i) := by
  unfold sigmM
  show Ideal.div (splat (F := Ideal) 0x3F800000#32 i) (splat (F := Ideal) 0x3F800000#32 i + Ideal.exp (-(v i))) = _
  rw [splat_apply, Ideal.ofBits_one_f32]
  rfl

theorem eluM_apply (v : FVec Ideal S64x401408 .f32) (i : S64x401408.Idx) : eluM v i = Cert.Spec.elu (v i) := by
  unfold eluM Cert.Spec.elu
  rw [select_apply, cmpf_apply, splat_apply, mulf_apply, splat_apply, Ideal.ofBits_one_f32, one_mul]
  show Scalar.select _ (v i) (Ideal.exp (Scalar.select _ _ (v i)) - 1) = _
  rw [cmpf_apply, splat_apply, splat_id_apply]
  by_cases h : Cert.Spec.gt0 (v i) = 1#1
  · show Scalar.select (Cert.Spec.gt0 (v i)) _ _ = Scalar.select (Cert.Spec.gt0 (v i)) _ _
    rw [h, select_one, select_one]
  · show Scalar.select (Cert.Spec.gt0 (v i)) _ (Ideal.exp (Scalar.select (Cert.Spec.gt0 (v i)) _ _) - 1) = Scalar.select (Cert.Spec.gt0 (v i)) _ _
    rw [eq_zero_of_ne_one h, select_zero, select_zero, select_zero]
    show _ = Ideal.exp (v i) - Ideal.ofBits .f32 0x3F800000#32
    rw [Ideal.ofBits_one_f32]

theorem leakyM_apply (v : FVec Ideal S64x401408 .f32) (i : S64x401408.Idx) : leakyM v i = Cert.Spec.leaky (v i) := by
  unfold leakyM Cert.Spec.leaky
  rw [select_apply, cmpf_apply, splat_apply, mulf_apply, splat_id_apply]

theorem geluM_apply (v : FVec Ideal S64x401408 .f32) (i : S64x401408.Idx) : geluM v i = Cert.Spec.gelu (v i) := by
  unfold geluM Cert.Spec.gelu
  show v i * (splat (F := Ideal) 0x3F000000#32 i * (splat (F := Ideal) 0x3F800000#32 i + Ideal.tanh (splat (F := Ideal) 0x3F4C422A#32 i * (v i + splat (F := Ideal) 0x3D372713#32 i * (v i * v i * v i))))) = _
  rw [splat_apply, splat_apply, splat_apply, splat_apply, mul_assoc (v i) (v i) (v i)]

end Cert.ReferenceIdeal.RefPointwise

end
-- ==== Proof.RefIndex.lean ====
/-
  The reference's index side, read at an index, for codes in {0, …, 5}.

  The codes are laid along the last axis: the index array reads, at (u, b, n), the code of column n. A code that is
  not negative as a signed word is left alone by the wrap-around of negative indices. Under a trailing unit axis the
  same word is read at (u, b, n, z). Such a word is at least 0 and at most 5 as a signed integer, so the in-range
  bit, a conjunction over the one position of the trailing axis, is 1 everywhere.
-/
import proofs.«412315_j27221502722284_1_alg».proof.Proof.RefTermDef
import proofs.«412315_j27221502722284_1_alg».proof.Proof.Gen.ReferenceIdeal
import Idealize.ShloMosaic.Lib.IdealHost
import Idealize.ShloMosaic.Lib.ValueIdx
import Idealize.ShloMosaic.Lib.ValueLayout
import Idealize.ShloMosaic.Lib.Pipeline.Value
import Idealize.ShloMosaic.Lib.ReduceAll

noncomputable section

namespace Cert.ReferenceIdeal.RefIndex

open Idealize.ShloMosaic Idealize.ShloMosaic.ValueIdx Cert.ReferenceIdeal Cert.ReferenceIdeal.RefTerm

/-- The index array at (u, b, n) is the code of column n. -/
theorem idx0_apply (codes : IVec S401408 32) (u : Fin 1) (b : Fin 64) (n : Fin 401408) :
    idx0 codes (ix3 u b n) = codes (ix1 n) := by
  unfold idx0
  rw [broadcastInDim_apply _ _ _ (ix3 u b n) (ix3 (0 : Fin 1) (0 : Fin 1) n) (fun a => by
    match a with
    | ⟨0, _⟩ => rfl
    | ⟨1, _⟩ => rfl
    | ⟨2, _⟩ => rfl)]
  rw [broadcastInDim_apply _ _ _ (ix3 (0 : Fin 1) (0 : Fin 1) n) (ix1 n) (fun a => by
    match a with
    | ⟨0, _⟩ => rfl)]

/-- A word below 6 is not negative as a signed integer, at most 5, and its signed value is its unsigned one. -/
theorem toInt_of_lt_six (c : BitVec 32) (h : c.toNat < 6) : c.toInt = (c.toNat : Int) := by
  rw [BitVec.toInt_eq_toNat_cond]
  split
  · rfl
  · omega

theorem slt_zero_of_lt_six (c : BitVec 32) (h : c.toNat < 6) : IntOp.cmpi .slt c 0#32 = 0#1 := by
  have hc := toInt_of_lt_six c h
  have z : (0#32 : BitVec 32).toInt = 0 := by decide
  unfold IntOp.cmpi
  simp only [BitVec.slt, hc, z]
  have : ¬ ((c.toNat : Int) < 0) := by omega
  simp [this]

theorem sge_zero_of_lt_six (c : BitVec 32) (h : c.toNat < 6) : IntOp.cmpi .sge c 0#32 = 1#1 := by
  have hc := toInt_of_lt_six c h
  have z : (0#32 : BitVec 32).toInt = 0 := by decide
  unfold IntOp.cmpi
  simp only [BitVec.sle, hc, z]
  have : ((0 : Int) ≤ (c.toNat : Int)) := by omega
  simp [this]

theorem sle_five_of_lt_six (c : BitVec 32) (h : c.toNat < 6) : IntOp.cmpi .sle c 5#32 = 1#1 := by
  have hc := toInt_of_lt_six c h
  have z : (5#32 : BitVec 32).toInt = 5 := by decide
  unfold IntOp.cmpi
  simp only [BitVec.sle, hc, z]
  have : ((c.toNat : Int) ≤ 5) := by omega
  simp [this]

/-- For a code below 6 the wrap-around leaves the index alone. -/
theorem idx1_apply (codes : IVec S401408 32) (hr : ∀ i, (codes i).toNat < 6) (u : Fin 1) (b : Fin 64) (n : Fin 401408) :
    idx1 codes (ix3 u b n) = codes (ix1 n) := by
  unfold idx1
  rw [select_apply]
  show Scalar.select (IntOp.cmpi .slt (idx0 codes (ix3 u b n)) (broadcastInDim S1x64x401408 ![] Facts₀.bcast_S_S1x64x401408 (constantI S_ 32 0#32) (ix3 u b n))) _ _ = _
  rw [broadcastInDim_scalar_apply, idx0_apply]
  show Scalar.select (IntOp.cmpi .slt (codes (ix1 n)) 0#32) _ _ = _
  rw [slt_zero_of_lt_six _ (hr _), select_zero]

/-- Under the trailing unit axis the same word is read. -/
theorem idx2_apply (codes : IVec S401408 32) (hr : ∀ i, (codes i).toNat < 6) (u : Fin 1) (b : Fin 64) (n : Fin 401408) (z : Fin 1) :
    idx2 codes (ix4 u b n z) = codes (ix1 n) := by
  unfold idx2
  rw [shapeCast_apply _ _ (ix4 u b n z) (ix3 u b n) (by
    have hz : z.val = 0 := by omega
    rw [Shape.rowMajor_val_four, Shape.rowMajor_val_three]
    show (u.val * 64 + b.val) * 401408 + n.val = ((u.val * 64 + b.val) * 401408 + n.val) * 1 + z.val
    rw [hz]; omega)]
  exact idx1_apply codes hr u b n

/-- A conjunction of ones, from one, is one. -/
theorem foldl_andi_one {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_one f hf l

/-- For codes below 6 every position is in range. -/
theorem inRange_apply (codes : IVec S401408 32) (hr : ∀ i, (codes i).toNat < 6) (j : S1x64x401408.Idx) :
    inRange codes j = 1#1 := by
  unfold inRange
  rw [Host.reduce_eq_foldl]
  refine foldl_andi_one _ (fun i => ?_) _
  obtain ⟨u, b, n, z, rfl⟩ : ∃ (u : Fin 1) (b : Fin 64) (n : Fin 401408) (z : Fin 1), i = ix4 u b n z :=
    ⟨i 0, i 1, i 2, i 3, eq_ix4 i⟩
  show IntOp.andi (IntOp.cmpi .sge (idx2 codes (ix4 u b n z)) _) (IntOp.cmpi .sle (idx2 codes (ix4 u b n z)) _) = 1#1
  rw [idx2_apply codes hr, broadcastInDim_scalar_apply]
  rw [broadcastInDim_apply _ _ _ (ix4 u b n z) (ix4 (0 : Fin 1) (0 : Fin 1) (0 : Fin 1) (0 : Fin 1)) (fun a => by
    match a with
    | ⟨0, _⟩ => rfl
    | ⟨1, _⟩ => rfl
    | ⟨2, _⟩ => rfl
    | ⟨3, _⟩ => rfl)]
  rw [broadcastInDim_apply _ _ _ (ix4 (0 : Fin 1) (0 : Fin 1) (0 : Fin 1) (0 : Fin 1)) (ix1 (0 : Fin 1)) (fun a => by
    match a with
    | ⟨0, _⟩ => rfl)]
  show IntOp.andi (IntOp.cmpi .sge (codes (ix1 n)) 0#32) (IntOp.cmpi .sle (codes (ix1 n)) 5#32) = 1#1
  rw [sge_zero_of_lt_six _ (hr _), sle_five_of_lt_six _ (hr _)]
  rfl

end Cert.ReferenceIdeal.RefIndex

end
-- ==== Proof.RefValue.lean ====
/-
  The reference's result is the specification's function of the arguments, for codes in {0, …, 5}.

  At (0, b, n) the in-range bit is 1, so the selected entry is the gathered one: the stack's entry (r, b, n) with r
  the code of column n (a word below 6 is its own clamped signed reading). Slab r of the stack is the r-th
  activation matrix, whose entry (b, n) is the r-th activation of the matrix entry; and the specification's
  selection chain at the code r picks exactly the r-th activation. Dropping the leading unit axis and reading the
  matrix under the input's shape are the same re-indexings on both sides.
-/
import proofs.«412315_j27221502722284_1_alg».proof.Proof.LibTakeAlongAxis
import proofs.«412315_j27221502722284_1_alg».proof.Proof.RefPointwise
import proofs.«412315_j27221502722284_1_alg».proof.Proof.RefIndex

noncomputable section

namespace Cert.ReferenceIdeal.RefValue

open Idealize.ShloMosaic Idealize.ShloMosaic.ValueIdx Cert.ReferenceIdeal Cert.ReferenceIdeal.RefTerm
open Cert.ReferenceIdeal.RefPointwise Cert.ReferenceIdeal.RefIndex Cert.Proof.TakeAxis0

/-- A word below 6 is one of the six literals. -/
theorem code_cases (c : BitVec 32) (h : c.toNat < 6) :
    c = 0#32 ∨ c = 1#32 ∨ c = 2#32 ∨ c = 3#32 ∨ c = 4#32 ∨ c = 5#32 := by
  have e : c = BitVec.ofNat 32 c.toNat := by simp
  generalize c.toNat = k at h e
  subst e
  interval_cases k <;> simp

/-- Slab r of the stack, r the code's clamped reading, holds at (b, n) the code's activation of the matrix entry. -/
theorem stacked_apply (v : FVec Ideal S64x401408 .f32) (c : BitVec 32) (hc : c.toNat < 6) (b : Fin 64) (n : Fin 401408) :
    stacked v (ix3 (row (K := 6) (by decide) c) b n) = Cert.Spec.act c (v (ix2 b n)) := by
  unfold stacked
  rw [concat6_apply]
  rcases code_cases c hc with rfl | rfl | rfl | rfl | rfl | rfl
  · show slab (reluM v) (ix3 (0 : Fin 1) b n) = _
    unfold slab; rw [slab_apply, reluM_apply]; rfl
  · show slab (sigmM v) (ix3 (0 : Fin 1) b n) = _
    unfold slab; rw [slab_apply, sigmM_apply]; rfl
  · show slab (tanhM v) (ix3 (0 : Fin 1) b n) = _
    unfold slab; rw [slab_apply, tanhM_apply]; rfl
  · show slab (eluM v) (ix3 (0 : Fin 1) b n) = _
    unfold slab; rw [slab_apply, eluM_apply]; rfl
  · show slab (leakyM v) (ix3 (0 : Fin 1) b n) = _
    unfold slab; rw [slab_apply, leakyM_apply]; rfl
  · show slab (geluM v) (ix3 (0 : Fin 1) b n) = _
    unfold slab; rw [slab_apply, geluM_apply]; rfl

/-- The selected entries at (0, b, n). -/
theorem taken_apply (x : FVec Ideal S64x128x56x56 .f32) (codes : IVec S401408 32) (hr : ∀ i, (codes i).toNat < 6)
    (b : Fin 64) (n : Fin 401408) :
    taken x codes (ix3 (0 : Fin 1) b n) = Cert.Spec.act (codes (ix1 n)) (xr x (ix2 b n)) := by
  unfold taken
  rw [select_apply, inRange_apply codes hr, select_one]
  rw [show gather_S6x64x401408_S1x64x401408x1_S1x64x401408_n_0_12_12_0_3_111
      = takeDims 6 64 401408 Facts₀.gather_S6x64x401408_S1x64x401408x1_S1x64x401408_n_0_12_12_0_3_111_wf from rfl]
  rw [gather_takeDims_apply (by decide), idx2_apply codes hr]
  exact stacked_apply (xr x) (codes (ix1 n)) (hr _) b n

/-- THE REFERENCE'S RESULT: the specification's function of the arguments. -/
theorem refOut_eq (x : FVec Ideal S64x128x56x56 .f32) (codes : IVec S401408 32) (hr : ∀ i, (codes i).toNat < 6) :
    refOut (F := Ideal) x codes = Cert.Spec.G x codes := by
  unfold refOut Cert.Spec.G
  refine congrArg (fun y => shapeCast S64x128x56x56 y _) ?_
  funext i
  obtain ⟨b, n, rfl⟩ : ∃ (b : Fin 64) (n : Fin 401408), i = ix2 b n := ⟨i 0, i 1, eq_ix2 i⟩
  rw [shapeCast_1ab_ab_apply, taken_apply x codes hr, Cert.Spec.H_apply]
  rfl

end Cert.ReferenceIdeal.RefValue

end
-- ==== Proof.PreRange.lean ====
/-
  The index range, read out of the precondition.

  The precondition is the conjunction of two bits: "every entry of the input has finite magnitude" and
  "every code c satisfies 0 ≤ c and c < 6", both comparisons of 32-bit words read as signed integers.
  When the conjunction is 1 the second bit is 1; a conjunction over all positions that is 1 is 1 at each
  position; and a word that is non-negative and below 6 as a signed integer has unsigned value below 6.
-/
import proofs.«412315_j27221502722284_1_alg».proof.Pre_finite_inputs
import proofs.«412315_j27221502722284_1_alg».proof.Proof.Gen.Pre_finite_inputs
import Idealize.ShloMosaic.Lib.ReduceAll
import Idealize.ShloMosaic.Lib.ValueIdx
import Idealize.ShloMosaic.Lib.StableHlo.Predicate

noncomputable section

namespace Cert.PreRange

open Idealize.ShloMosaic

/-- The scalar shape has one index. -/
instance : Subsingleton Cert.Pre_finite_inputs.S_.Idx := ⟨fun a b => funext fun d => d.elim0⟩

/-- A 32-bit word c with 0 ≤ c and c < 6 as signed integers has unsigned value below 6: were its value
    2³¹ or more, its signed reading would be negative. -/
theorem toNat_lt_six (c : BitVec 32) (h0 : IntOp.cmpi .sge c 0#32 = 1#1) (h6 : IntOp.cmpi .slt c 6#32 = 1#1) :
    c.toNat < 6 := by
  unfold IntOp.cmpi at h0 h6
  rw [StableHlo.Predicate.ofBool_eq_one_iff] at h0 h6
  simp only [BitVec.slt, BitVec.sle, decide_eq_true_eq] at h0 h6
  have z : (0#32 : BitVec 32).toInt = 0 := by decide
  have s : (6#32 : BitVec 32).toInt = 6 := by decide
  rw [z] at h0
  rw [s] at h6
  have hc := BitVec.toInt_eq_toNat_cond c
  have hlt := c.isLt
  split at hc <;> omega

/-- Under the precondition every code is one of 0, …, 5. -/
theorem range_of_pre {F : FTy → Type} [FloatOps F] (x : FVec F Cert.Pre_finite_inputs.S64x128x56x56 .f32) (codes : IVec Cert.Pre_finite_inputs.S401408 32)
    (h : Cert.Pre_finite_inputs.fn (F := F) x codes = fun _ => 1#1) : ∀ i : Cert.Pre_finite_inputs.S401408.Idx, (codes i).toNat < 6 := by
  intro i
  have e := congrFun h ValueIdx.ix0
  dsimp only [Cert.Pre_finite_inputs.fn] at e
  -- the second conjunct: the conjunction over all positions of the two comparisons
  have e2 := (IntOp.andi_eq_one.1 e).2
  -- at position i
  have e3 := Host.reduce_andi_all _ _ _ _ _ e2 i
  obtain ⟨h0, h6⟩ := IntOp.andi_eq_one.1 e3
  exact toNat_lt_six (codes i) h0 h6

end Cert.PreRange

end
-- ==== Proof.lean ====
/-
  The certificate's five claims.

  The two kernel programs run, terminate and leave their arguments unchanged: the launch of the one region, every grid
  point's block of the matrix fetched, computed and written back. The reference is a straight line of host operations,
  so it runs and writes none of its arguments. No operation of the kernel was rewritten for the idealized reading, so
  there is nothing to preserve. For the equivalence: on extended reals the kernel's result and the reference's are one
  function of the arguments — entry (b, n) of the input read as a [64, 401408] matrix goes through the activation that
  the code of column n selects —, the kernel by a chain of selections on the code, the reference by stacking the six
  activation matrices and gathering along the stack; the two agree because the precondition keeps every code in
  {0, …, 5}, where the gather's index is in range and names exactly the slab the chain selects.
-/
import proofs.«412315_j27221502722284_1_alg».proof.Defs
import proofs.«412315_j27221502722284_1_alg».proof.Proof.Gen.Kernel
import proofs.«412315_j27221502722284_1_alg».proof.Proof.Gen.Kernel.Frame
import proofs.«412315_j27221502722284_1_alg».proof.Proof.Gen.KernelIdeal
import proofs.«412315_j27221502722284_1_alg».proof.Proof.Gen.KernelIdeal.Frame
import proofs.«412315_j27221502722284_1_alg».proof.Proof.Gen.ReferenceIdeal
import proofs.«412315_j27221502722284_1_alg».proof.Proof.Gen.Pre_finite_inputs
import proofs.«412315_j27221502722284_1_alg».proof.Proof.KernelValue
import proofs.«412315_j27221502722284_1_alg».proof.Proof.RefRun
import proofs.«412315_j27221502722284_1_alg».proof.Proof.RefValue
import proofs.«412315_j27221502722284_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, read at its two arguments: no operation writes them. -/
theorem frame_referenceIdeal : Cert.frame_ReferenceIdeal := fun m ρ _ =>
  (θ_run Cert.ReferenceIdeal.defs _ _).mono (fun _ h c =>
      ⟨(h c Cert.ReferenceIdeal.main_arg0).trans (Cert.ReferenceIdeal.RefRun.arg0_eq _),
        (h c Cert.ReferenceIdeal.main_arg1).trans (Cert.ReferenceIdeal.RefRun.arg1_eq _)⟩)
    (Cert.ReferenceIdeal.RefRun.run (F := Ideal) m ρ)

/-- Both programs end at the specification's function of the arguments; the reference's by the range of the codes,
    which the precondition gives. -/
theorem algebraic : Cert.algebraic_KernelIdeal_ReferenceIdeal := by
  intro m ρ m' ρ' hpre hagree
  refine ⟨_, Cert.KernelIdeal.KVal.run m ρ, ?_⟩
  refine (θ_run Cert.ReferenceIdeal.defs _ _).mono (fun _ h c => ⟨?_, ?_, ?_⟩)
    (Cert.ReferenceIdeal.RefRun.run (F := Ideal) m' ρ')
  · refine (h c Cert.ReferenceIdeal.main_v35).trans ((Cert.ReferenceIdeal.RefRun.out_eq _).trans ?_)
    show Cert.ReferenceIdeal.RefTerm.refOut (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = _
    rw [(hagree c).1, (hagree c).2]
    exact Cert.ReferenceIdeal.RefValue.refOut_eq _ _ (Cert.PreRange.range_of_pre _ _ (hpre c))
  · exact (h c Cert.ReferenceIdeal.main_arg0).trans (Cert.ReferenceIdeal.RefRun.arg0_eq _)
  · exact (h c Cert.ReferenceIdeal.main_arg1).trans (Cert.ReferenceIdeal.RefRun.arg1_eq _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
